-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel

variable [Facts]

def fn {F : FTy → Type} [FloatOps F] (main_arg0 : FVec F S512x1024 .f32) (main_arg1 : FVec F S512x1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  main_v8
-- ==== Kernel.lean ====
abbrev S512x1024 : Shape := ⟨2, ![512, 1024]⟩
abbrev S512x512 : Shape := ⟨2, ![512, 512]⟩
abbrev S128x1024 : Shape := ⟨2, ![128, 1024]⟩
abbrev S128x128 : Shape := ⟨2, ![128, 128]⟩
abbrev S128x1x128 : Shape := ⟨3, ![128, 1, 128]⟩
abbrev S1x128x128 : Shape := ⟨3, ![1, 128, 128]⟩
abbrev S128x128x128 : Shape := ⟨3, ![128, 128, 128]⟩

abbrev nBuf : Space → Nat
  | .hbm => 3
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x512, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x128, .f32⟩
  | .local _ .vmem, ⟨5, _⟩ => ⟨S128x128, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_mult1 : BitVec 32 :=
  let c0_i32 : BitVec 32 := 0#32
  let c128_i32 : BitVec 32 := 128#32
  let v1 : BitVec 32 := Scalar.muli c0_i32 c128_i32
  v1
def k0_off1 (c0_i32 : BitVec 32) : Fin 2 → Nat :=
  let c0 : Index := 0#32
  let c128_i32 : BitVec 32 := 128#32
  let v1 : BitVec 32 := Scalar.muli c0_i32 c128_i32
  let v2 : BitVec 32 := v1
  let v3 : Index := Scalar.indexCast v2
  ![0, v3.toNat]
def k0_mult2 : BitVec 32 :=
  let c1_i32 : BitVec 32 := 1#32
  let c128_i32_2 : BitVec 32 := 128#32
  let v14 : BitVec 32 := Scalar.muli c1_i32 c128_i32_2
  v14
def k0_mult3 : BitVec 32 :=
  let c2_i32 : BitVec 32 := 2#32
  let c128_i32_6 : BitVec 32 := 128#32
  let v27 : BitVec 32 := Scalar.muli c2_i32 c128_i32_6
  v27
def k0_mult4 : BitVec 32 :=
  let c3_i32 : BitVec 32 := 3#32
  let c128_i32_10 : BitVec 32 := 128#32
  let v40 : BitVec 32 := Scalar.muli c3_i32 c128_i32_10
  v40
def k0_mult5 : BitVec 32 :=
  let c4_i32 : BitVec 32 := 4#32
  let c128_i32_14 : BitVec 32 := 128#32
  let v53 : BitVec 32 := Scalar.muli c4_i32 c128_i32_14
  v53
def k0_mult6 : BitVec 32 :=
  let c5_i32 : BitVec 32 := 5#32
  let c128_i32_18 : BitVec 32 := 128#32
  let v66 : BitVec 32 := Scalar.muli c5_i32 c128_i32_18
  v66
def k0_mult7 : BitVec 32 :=
  let c6_i32 : BitVec 32 := 6#32
  let c128_i32_22 : BitVec 32 := 128#32
  let v79 : BitVec 32 := Scalar.muli c6_i32 c128_i32_22
  v79
def k0_mult8 : BitVec 32 :=
  let c7_i32 : BitVec 32 := 7#32
  let c128_i32_26 : BitVec 32 := 128#32
  let v92 : BitVec 32 := Scalar.muli c7_i32 c128_i32_26
  v92
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  h_S128x128 : 0 < S128x128.numel
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [2] S128x128
  inb_S128x128_S128x128_0_0 : ∀ a, (![0, 0] : Fin 2 → Nat) a + S128x128.size a ≤ S128x128.size a
  hrank0 : 0 < grid0.rank
  k0_mult1_dvd : 128 ∣ k0_mult1.toNat
  k0_off1_inb : ∀ (r : Fin 8), ∀ a, (k0_off1 (BitVec.ofNat 32 r.val)) a + S128x128.size a ≤ S128x1024.size a
  k0_mult2_dvd : 128 ∣ k0_mult2.toNat
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S512x1024.size a
  hwx0_0 : ∀ i : grid0.Coords, EltTy.bits .f32 = 32 ∨ (Rect.block (s := S512x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S512x1024.size a
  hwx0_1 : ∀ i : grid0.Coords, EltTy.bits .f32 = 32 ∨ (Rect.block (s := S512x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S512x512.size a
  hwx0_2 : ∀ i : grid0.Coords, EltTy.bits .f32 = 32 ∨ (Rect.block (s := S512x512) S128x128.size (cc0_transform_2 i) (hinb0_2 i)).WholeWords (EltTy.packing .f32)

variable [Facts₀]

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x1024 : Shape := ⟨2, ![512, 1024]⟩
abbrev S1x512x1024 : Shape := ⟨3, ![1, 512, 1024]⟩
abbrev S512x1x1024 : Shape := ⟨3, ![512, 1, 1024]⟩
abbrev S512x512x1024 : Shape := ⟨3, ![512, 512, 1024]⟩
abbrev S_ : Shape := ⟨0, ![]⟩
abbrev S512x512 : Shape := ⟨2, ![512, 512]⟩

abbrev nBuf : Space → Nat
  | .hbm => 9
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S1x512x1024, .f32⟩
  | .hbm, ⟨3, _⟩ => ⟨S512x1x1024, .f32⟩
  | .hbm, ⟨4, _⟩ => ⟨S512x512x1024, .f32⟩
  | .hbm, ⟨5, _⟩ => ⟨S512x512x1024, .f32⟩
  | .hbm, ⟨6, _⟩ => ⟨S512x512x1024, .f32⟩
  | .hbm, ⟨7, _⟩ => ⟨S_, .f32⟩
  | .hbm, ⟨8, _⟩ => ⟨S512x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S512x1024_S1x512x1024_1_2 : S512x1024.BroadcastsInDim S1x512x1024 (![1, 2] : Fin 2 → Fin S1x512x1024.rank)
  bcast_S512x1024_S512x1x1024_0_2 : S512x1024.BroadcastsInDim S512x1x1024 (![0, 2] : Fin 2 → Fin S512x1x1024.rank)
  bcast_S1x512x1024_S512x512x1024_0_1_2 : S1x512x1024.BroadcastsInDim S512x512x1024 (![0, 1, 2] : Fin 3 → Fin S512x512x1024.rank)
  bcast_S512x1x1024_S512x512x1024_0_1_2 : S512x1x1024.BroadcastsInDim S512x512x1024 (![0, 1, 2] : Fin 3 → Fin S512x512x1024.rank)
  reducesTo_S512x512x1024_S512x512_d2 : S512x512x1024.ReducesTo [2] S512x512
  h_S_ : 0 < S_.numel

variable [Facts₀]

class Facts : Prop extends Facts₀ where

variable [Facts]
-- ==== Proof.KernelPiece.lean ====
/-
  What one run of the kernel body leaves in the output tile's staging buffer.

  The body reads eight slabs of 128 columns from each of its two input blocks (columns 0, 128, …, 896), folds them
  into a running maximum in three stretches (chunks 0–2, then 3–5, then 6–7), and stores the result over the whole
  [128, 128] tile with a single store. So the tile's contents after the body are that one store's value: the three
  stretches composed, over the sixteen slabs. This holds at any float instance: it is about which loads feed which
  store, not about arithmetic.
-/
import proofs.«165688_j64433099374740_1_alg».proof.Proof.Gen.KernelIdeal.Frame
import Idealize.ShloMosaic.Lib.Pipeline.Value

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.Sem

variable {F : FTy → Type} [FloatOps F]

/-- The store's rectangle starts at the tile's origin. -/
theorem origin : (![0, 0] : Fin 2 → ℕ) = fun _ => 0 :=
  funext fun a => match a with | ⟨0, _⟩ => rfl | ⟨1, _⟩ => rfl

/-- The slab of 128 columns from column `n` of an input block. -/
abbrev slab (x : Vec F S128x1024 .f32) (n : ℕ)
    (inb : ∀ a, (![0, n] : Fin 2 → ℕ) a + S128x128.size a ≤ S128x1024.size a) : Vec F S128x128 .f32 :=
  View.ld x (Rect.unit (s := S128x1024) ![0, n] S128x128.size inb)

/-- The stored value as a function of the two input blocks: the three stretches of the running maximum composed. -/
def tileOf (x0 x1 : Vec F S128x1024 .f32)
    (b0 : ∀ a, (![0, 0] : Fin 2 → ℕ) a + S128x128.size a ≤ S128x1024.size a)
    (b1 : ∀ a, (![0, 128] : Fin 2 → ℕ) a + S128x128.size a ≤ S128x1024.size a)
    (b2 : ∀ a, (![0, 256] : Fin 2 → ℕ) a + S128x128.size a ≤ S128x1024.size a)
    (b3 : ∀ a, (![0, 384] : Fin 2 → ℕ) a + S128x128.size a ≤ S128x1024.size a)
    (b4 : ∀ a, (![0, 512] : Fin 2 → ℕ) a + S128x128.size a ≤ S128x1024.size a)
    (b5 : ∀ a, (![0, 640] : Fin 2 → ℕ) a + S128x128.size a ≤ S128x1024.size a)
    (b6 : ∀ a, (![0, 768] : Fin 2 → ℕ) a + S128x128.size a ≤ S128x1024.size a)
    (b7 : ∀ a, (![0, 896] : Fin 2 → ℕ) a + S128x128.size a ≤ S128x1024.size a) : Vec F S128x128 .f32 :=
  k0_pay1
    (k0_pay3
      (k0_pay2 (slab x0 0 b0) (slab x1 0 b0) (slab x0 128 b1) (slab x1 128 b1) (slab x0 256 b2) (slab x1 256 b2))
      (slab x0 384 b3) (slab x1 384 b3) (slab x0 512 b4) (slab x1 512 b4) (slab x0 640 b5) (slab x1 640 b5))
    (slab x0 768 b6) (slab x1 768 b6) (slab x0 896 b7) (slab x1 896 b7)

/-- After the body the output tile's staging buffer holds `tileOf` of the two input blocks. -/
theorem out_eq_tileOf (c : Dev nD) (i : grid0.Coords) (arg2 : Memref sig .tc .vmem S128x1024 .f32) (harg2 : arg2.IsWhole)
    (arg3 : Memref sig .tc .vmem S128x1024 .f32) (harg3 : arg3.IsWhole) (arg4 : Memref sig .tc .vmem S128x128 .f32) (harg4 : arg4.IsWhole)
    (x0 x1 : Vec F S128x1024 .f32) (b0 b1 b2 b3 b4 b5 b6 b7) :
    out0_A_2 c i arg2 harg2 arg3 harg3 arg4 harg4 x0 x1 = tileOf x0 x1 b0 b1 b2 b3 b4 b5 b6 b7 := by
  unfold out0_A_2
  rw [View.read_writes_eq_canon _ _ _ (cover0_A_2 c i arg2 harg2 arg3 harg3 arg4 harg4 x0 x1)]
  unfold kernelRun0_A
  dsimp only
  sl_unfold_words
  rw [View.canon_unit_zero origin]
  simp only [View.readAt_eq_ld, harg2.read_unread, harg3.read_unread]
  rfl

end Cert.KernelIdeal.Tile

end
-- ==== Proof.MaxFold.lean ====
/-
  The order-theoretic core of the max-plus layer, on the extended reals.

  The maximum of a family indexed by `Fin 1024` can be taken in eight consecutive chunks of 128: a running maximum
  that starts at `⊥` and absorbs one chunk's maximum at a time ends at the maximum of the whole family. Nothing here
  is about order of evaluation: a value is determined by the set of its upper bounds, and an upper bound of every
  chunk is an upper bound of every member, because each index `k < 1024` is `(k / 128) * 128 + k % 128`.
  Also: the f32 word `0xFF800000` denotes `⊥` (minus infinity), the unit of `max`.
-/
import Idealize.ShloMosaic.PureOps.Ideal.Laws

namespace Cert.MaxPlus

open Idealize.ShloMosaic

/-- The word of minus infinity is the bottom of the extended reals. -/
theorem negInf_eq_bot : Ideal.ofBits .f32 0xFF800000#32 = (⊥ : EReal) := by
  simp [Ideal.ofBits, Ideal.ieee]

/-- A maximum taken from `⊥` over a finite family is below `b` exactly when every member is. -/
theorem foldMax_le_iff {n : Nat} (f : Fin n → EReal) (b : EReal) :
    (Finset.univ : Finset (Fin n)).fold max ⊥ f ≤ b ↔ ∀ k, f k ≤ b := by
  rw [Finset.fold_max_le]
  exact ⟨fun h k => h.2 k (Finset.mem_univ k), fun h => ⟨bot_le, fun k _ => h k⟩⟩

/-- Member `k` of chunk `c`: index `c * 128 + k` of the long axis. -/
def at128 (c : Fin 8) (k : Fin 128) : Fin 1024 :=
  ⟨c.val * 128 + k.val, by have := c.isLt; have := k.isLt; omega⟩

/-- Every index of the long axis lies in one of the eight chunks. -/
theorem eq_at128 (k : Fin 1024) :
    k = at128 ⟨k.val / 128, by have := k.isLt; omega⟩ ⟨k.val % 128, Nat.mod_lt _ (by decide)⟩ :=
  Fin.ext (Nat.div_add_mod' k.val 128).symm

/-- The running maximum over eight chunks, from `⊥`, is the maximum over the whole axis. -/
theorem chunked_max (f : Fin 1024 → EReal) :
    max (max (max (max (max (max (max (max ⊥
      ((Finset.univ : Finset (Fin 128)).fold max ⊥ fun k => f (at128 0 k)))
      ((Finset.univ : Finset (Fin 128)).fold max ⊥ fun k => f (at128 1 k)))
      ((Finset.univ : Finset (Fin 128)).fold max ⊥ fun k => f (at128 2 k)))
      ((Finset.univ : Finset (Fin 128)).fold max ⊥ fun k => f (at128 3 k)))
      ((Finset.univ : Finset (Fin 128)).fold max ⊥ fun k => f (at128 4 k)))
      ((Finset.univ : Finset (Fin 128)).fold max ⊥ fun k => f (at128 5 k)))
      ((Finset.univ : Finset (Fin 128)).fold max ⊥ fun k => f (at128 6 k)))
      ((Finset.univ : Finset (Fin 128)).fold max ⊥ fun k => f (at128 7 k))
      = (Finset.univ : Finset (Fin 1024)).fold max ⊥ f := by
  refine eq_of_forall_ge_iff fun b => ?_
  simp only [max_le_iff, bot_le, true_and, foldMax_le_iff]
  constructor
  · rintro ⟨⟨⟨⟨⟨⟨⟨h0, h1⟩, h2⟩, h3⟩, h4⟩, h5⟩, h6⟩, h7⟩ k
    have hall : ∀ (c : Fin 8) (j : Fin 128), f (at128 c j) ≤ b := fun c j =>
      match c with
      | ⟨0, _⟩ => h0 j | ⟨1, _⟩ => h1 j | ⟨2, _⟩ => h2 j | ⟨3, _⟩ => h3 j
      | ⟨4, _⟩ => h4 j | ⟨5, _⟩ => h5 j | ⟨6, _⟩ => h6 j | ⟨7, _⟩ => h7 j
    rw [eq_at128 k]
    exact hall _ _
  · intro h
    exact ⟨⟨⟨⟨⟨⟨⟨fun k => h _, fun k => h _⟩, fun k => h _⟩, fun k => h _⟩, fun k => h _⟩, fun k => h _⟩, fun k => h _⟩, fun k => h _⟩

end Cert.MaxPlus
-- ==== Proof.KernelChunk.lean ====
/-
  One 128-wide chunk of the kernel's loop body, read at an output position.

  The body takes a [128, 128] slab `xi` of `x` (rows: the batch tile) and a [128, 128] slab `wi` of `W` (rows: the
  output tile), lays `xi` out as [128, 1, 128] and `wi` as [1, 128, 128], broadcasts both to [128, 128, 128], adds, and
  takes the maximum along the last axis from minus infinity. At position (p, q) that is the largest of the 128 sums
  `xi[p, k] + wi[q, k]`: the cast and the broadcast of `xi` forget `q`, those of `wi` forget `p`, and a maximum along
  one axis is a fold of `max` over that axis's coordinate.

  A slab is what a load through the rectangle of 128 columns from column `n` reads of a [128, 1024] block: its
  entry (p, k) is the block's entry (p, n + k).
-/
import Idealize.ShloMosaic.PureOps.Ideal.Laws
import Idealize.ShloMosaic.Lib.ValueIdx
import Idealize.ShloMosaic.Lib.ValueLayout
import Idealize.ShloMosaic.Lib.Pipeline.FrameBody
import proofs.«165688_j64433099374740_1_alg».proof.Proof.MaxFold

noncomputable section

namespace Cert.MaxPlus

open Idealize.ShloMosaic Idealize.ShloMosaic.ValueIdx

variable {α : Type}

/-- An `[a, b]` array cast to `[a, 1, b]` reads, at `(i, u, j)`, the operand at `(i, j)`: both sit at row-major
    position `i * b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A `[128, 1, 128]` array broadcast along its middle axis reads, at `(p, q, k)`, the operand at `(p, 0, k)`. -/
theorem broadcastTo_mid_apply (v : (⟨3, ![128, 1, 128]⟩ : Shape).Idx → α)
    (h : (⟨3, ![128, 1, 128]⟩ : Shape).Broadcasts ⟨3, ![128, 128, 128]⟩) (p q k : Fin 128) :
    broadcastTo ⟨3, ![128, 128, 128]⟩ v h (ix3 p q k) = v (ix3 p (0 : Fin 1) k) := by
  refine broadcastTo_apply v h (ix3 p q k) (ix3 p (0 : Fin 1) k) fun ax => ?_
  match ax with
  | ⟨0, _⟩ => show p.val = if (128 : ℕ) = 1 then 0 else p.val; rw [if_neg (by decide)]
  | ⟨1, _⟩ => show 0 = if (1 : ℕ) = 1 then 0 else q.val; rw [if_pos rfl]
  | ⟨2, _⟩ => show k.val = if (128 : ℕ) = 1 then 0 else k.val; rw [if_neg (by decide)]

/-- A `[1, 128, 128]` array broadcast along its leading axis reads, at `(p, q, k)`, the operand at `(0, q, k)`. -/
theorem broadcastTo_lead_apply (v : (⟨3, ![1, 128, 128]⟩ : Shape).Idx → α)
    (h : (⟨3, ![1, 128, 128]⟩ : Shape).Broadcasts ⟨3, ![128, 128, 128]⟩) (p q k : Fin 128) :
    broadcastTo ⟨3, ![128, 128, 128]⟩ v h (ix3 p q k) = v (ix3 (0 : Fin 1) q k) := by
  refine broadcastTo_apply v h (ix3 p q k) (ix3 (0 : Fin 1) q k) fun ax => ?_
  match ax with
  | ⟨0, _⟩ => show 0 = if (1 : ℕ) = 1 then 0 else p.val; rw [if_pos rfl]
  | ⟨1, _⟩ => show q.val = if (128 : ℕ) = 1 then 0 else q.val; rw [if_neg (by decide)]
  | ⟨2, _⟩ => show k.val = if (128 : ℕ) = 1 then 0 else k.val; rw [if_neg (by decide)]

/-- The source index over output position `(p, q)` with `k` on the reduced last axis is `(p, q, k)`. -/
theorem lift_last (hr : (⟨3, ![128, 128, 128]⟩ : Shape).Reduces [2] ⟨2, ![128, 128]⟩) (p q k : Fin 128) :
    hr.lift (ix2 p q) k = ix3 p q k :=
  funext fun a => Fin.ext (match a with | ⟨0, _⟩ => rfl | ⟨1, _⟩ => rfl | ⟨2, _⟩ => rfl)

/-- The `x` side of the sum at `(p, q, k)`: the cast to [128, 1, 128] and the broadcast along the middle axis forget `q`. -/
theorem xSide_apply (xi : (⟨2, ![128, 128]⟩ : Shape).Idx → α)
    (h1 : (⟨2, ![128, 128]⟩ : Shape).ShapeCasts ⟨3, ![128, 1, 128]⟩)
    (h3 : (⟨3, ![128, 1, 128]⟩ : Shape).Broadcasts ⟨3, ![128, 128, 128]⟩)
    (hr : (⟨3, ![128, 128, 128]⟩ : Shape).Reduces [2] ⟨2, ![128, 128]⟩) (p q k : Fin 128) :
    broadcastTo ⟨3, ![128, 128, 128]⟩ (shapeCast ⟨3, ![128, 1, 128]⟩ xi h1) h3 (hr.lift (ix2 p q) k) = xi (ix2 p k) := by
  rw [lift_last hr p q k, broadcastTo_mid_apply, shapeCast_ab_a1b_apply]

/-- The `W` side: the cast to [1, 128, 128] and the broadcast along the leading axis forget `p`. -/
theorem wSide_apply (wi : (⟨2, ![128, 128]⟩ : Shape).Idx → α)
    (h2 : (⟨2, ![128, 128]⟩ : Shape).ShapeCasts ⟨3, ![1, 128, 128]⟩)
    (h4 : (⟨3, ![1, 128, 128]⟩ : Shape).Broadcasts ⟨3, ![128, 128, 128]⟩)
    (hr : (⟨3, ![128, 128, 128]⟩ : Shape).Reduces [2] ⟨2, ![128, 128]⟩) (p q k : Fin 128) :
    broadcastTo ⟨3, ![128, 128, 128]⟩ (shapeCast ⟨3, ![1, 128, 128]⟩ wi h2) h4 (hr.lift (ix2 p q) k) = wi (ix2 q k) := by
  rw [lift_last hr p q k, broadcastTo_lead_apply, shapeCast_ab_1ab_apply]

/-- The largest of the 128 sums of row `p` of one slab with row `q` of the other. -/
def chunkMax (xi wi : (⟨2, ![128, 128]⟩ : Shape).Idx → EReal) (p q : Fin 128) : EReal :=
  (Finset.univ : Finset (Fin 128)).fold max ⊥ fun k => xi (ix2 p k) + wi (ix2 q k)

/-- One chunk of the body, at `(p, q)`, is that maximum. -/
theorem chunk_apply (xi wi : FVec Ideal ⟨2, ![128, 128]⟩ .f32)
    (h1 : (⟨2, ![128, 128]⟩ : Shape).ShapeCasts ⟨3, ![128, 1, 128]⟩)
    (h2 : (⟨2, ![128, 128]⟩ : Shape).ShapeCasts ⟨3, ![1, 128, 128]⟩)
    (h3 : (⟨3, ![128, 1, 128]⟩ : Shape).Broadcasts ⟨3, ![128, 128, 128]⟩)
    (h4 : (⟨3, ![1, 128, 128]⟩ : Shape).Broadcasts ⟨3, ![128, 128, 128]⟩)
    (hr : (⟨3, ![128, 128, 128]⟩ : Shape).Reduces [2] ⟨2, ![128, 128]⟩)
    (hφ : FKind.Formats .f32) (hacc : (0xFF800000#32 : BitVec 32) = FKind.maximumf.neutral .f32 hφ) (p q : Fin 128) :
    multiReduction (F := Ideal) .maximumf [2] ⟨2, ![128, 128]⟩
        (addf (broadcastTo ⟨3, ![128, 128, 128]⟩ (shapeCast ⟨3, ![128, 1, 128]⟩ xi h1) h3)
              (broadcastTo ⟨3, ![128, 128, 128]⟩ (shapeCast ⟨3, ![1, 128, 128]⟩ wi h2) h4))
        0xFF800000#32 hr hφ hacc (ix2 p q)
      = chunkMax xi wi p q := by
  refine (Ideal.multiReduction_maximumf_single _ _ hr hφ hacc (ix2 p q)).trans ?_
  show (Finset.univ : Finset (Fin 128)).fold max (Ideal.ofBits .f32 0xFF800000#32) _ = _
  rw [negInf_eq_bot]
  unfold chunkMax
  refine congrArg (fun g : Fin 128 → EReal => (Finset.univ : Finset (Fin 128)).fold max ⊥ g) (funext fun (k : Fin 128) => ?_)
  exact congrArg₂ (· + ·) (xSide_apply xi h1 h3 hr p q k) (wSide_apply wi h2 h4 hr p q k)

/-- A slab loaded from column `n` of a [128, 1024] block reads, at `(p, k)`, the block at `(p, n + k)`. -/
theorem ld_cols_apply {Val : EltTy → Type} {e : EltTy} (x : (⟨2, ![128, 1024]⟩ : Shape).Idx → Val e) (n : ℕ)
    (inb : ∀ a, (![0, n] : Fin 2 → ℕ) a + (⟨2, ![128, 128]⟩ : Shape).size a ≤ (⟨2, ![128, 1024]⟩ : Shape).size a)
    (p k : Fin 128) (hk : n + k.val < 1024) :
    View.ld (Val := Val) (e' := e) x (Rect.unit (s := ⟨2, ![128, 1024]⟩) ![0, n] (⟨2, ![128, 128]⟩ : Shape).size inb) (ix2 p k)
      = x (ix2 p ⟨n + k.val, hk⟩) :=
  congrArg x (funext fun a => Fin.ext (match a with
    | ⟨0, _⟩ => by show 0 + 1 * p.val = p.val; omega
    | ⟨1, _⟩ => by show n + 1 * k.val = n + k.val; omega))

/-- So a chunk of two slabs loaded from column `c * 128` is the maximum over that chunk's members of the blocks' sums. -/
theorem chunkMax_ld (x w : Vec Ideal ⟨2, ![128, 1024]⟩ .f32) (c : Fin 8) (n : ℕ) (hn : n = c.val * 128)
    (inb inb' : ∀ a, (![0, n] : Fin 2 → ℕ) a + (⟨2, ![128, 128]⟩ : Shape).size a ≤ (⟨2, ![128, 1024]⟩ : Shape).size a)
    (p q : Fin 128) :
    chunkMax (View.ld (Val := Elt Ideal) (e' := .f32) x (Rect.unit (s := ⟨2, ![128, 1024]⟩) ![0, n] (⟨2, ![128, 128]⟩ : Shape).size inb))
             (View.ld (Val := Elt Ideal) (e' := .f32) w (Rect.unit (s := ⟨2, ![128, 1024]⟩) ![0, n] (⟨2, ![128, 128]⟩ : Shape).size inb')) p q
      = (Finset.univ : Finset (Fin 128)).fold max ⊥ fun k => (fun i : Fin 1024 => x (ix2 p i) + w (ix2 q i)) (at128 c k) := by
  subst hn
  unfold chunkMax
  refine congrArg (fun g : Fin 128 → EReal => (Finset.univ : Finset (Fin 128)).fold max ⊥ g) (funext fun (k : Fin 128) => ?_)
  have hk : c.val * 128 + k.val < 1024 := by have := c.isLt; have := k.isLt; omega
  exact congrArg₂ (· + ·) (ld_cols_apply (Val := Elt Ideal) (e := .f32) x _ inb p k hk) (ld_cols_apply (Val := Elt Ideal) (e := .f32) w _ inb' q k hk)

end Cert.MaxPlus

end
-- ==== Proof.KernelTile.lean ====
/-
  The output tile at a position, at the ideal instance.

  Each of the three stretches of the body is a running maximum that absorbs its chunks one at a time, so at position
  (p, q) of the tile it is `max` applied left to right to what it started from and its chunks' maxima. Composed, the
  stored tile at (p, q) is the running maximum from `⊥` over all eight chunks, which is the maximum over all 1024
  columns of `x0[p, i] + x1[q, i]`: the max-plus product of row p of the first input block with row q of the second.
-/
import proofs.«165688_j64433099374740_1_alg».proof.Proof.KernelPiece
import proofs.«165688_j64433099374740_1_alg».proof.Proof.KernelChunk

noncomputable section

namespace Cert.KernelIdeal.Tile

open Cert.KernelIdeal Cert.KernelIdeal.Gen Cert.MaxPlus
open Idealize.ShloMosaic Idealize.ShloMosaic.ValueIdx

/-- Chunks 0–2: from minus infinity. -/
theorem pay2_apply (v4 v6 v17 v19 v30 v32 : Vec Ideal S128x128 .f32) (p q : Fin 128) :
    k0_pay2 (F := Ideal) v4 v6 v17 v19 v30 v32 (ix2 p q)
      = max (max (max ⊥ (chunkMax v4 v6 p q)) (chunkMax v17 v19 p q)) (chunkMax v30 v32 p q) := by
  unfold k0_pay2
  refine (maximumf_apply _ _ _).trans ?_
  refine congrArg₂ max ?_ (chunk_apply v30 v32 _ _ _ _ _ _ _ p q)
  refine (maximumf_apply _ _ _).trans ?_
  refine congrArg₂ max ?_ (chunk_apply v17 v19 _ _ _ _ _ _ _ p q)
  refine (maximumf_apply _ _ _).trans ?_
  refine congrArg₂ max ?_ (chunk_apply v4 v6 _ _ _ _ _ _ _ p q)
  show FloatOps.ofBits (F := Ideal) .f32 0xFF800000#32 = _
  exact (Ideal.ofBits_def _).trans negInf_eq_bot

/-- Chunks 3–5: from what the first stretch left. -/
theorem pay3_apply (v39 : FVec Ideal S128x128 .f32) (v43 v45 v56 v58 v69 v71 : Vec Ideal S128x128 .f32) (p q : Fin 128) :
    k0_pay3 (F := Ideal) v39 v43 v45 v56 v58 v69 v71 (ix2 p q)
      = max (max (max (v39 (ix2 p q)) (chunkMax v43 v45 p q)) (chunkMax v56 v58 p q)) (chunkMax v69 v71 p q) := by
  unfold k0_pay3
  exact congrArg₂ max (congrArg₂ max (congrArg₂ max rfl (chunk_apply v43 v45 _ _ _ _ _ _ _ p q))
    (chunk_apply v56 v58 _ _ _ _ _ _ _ p q)) (chunk_apply v69 v71 _ _ _ _ _ _ _ p q)

/-- Chunks 6–7: from what the second stretch left. -/
theorem pay1_apply (v78 : FVec Ideal S128x128 .f32) (v82 v84 v95 v97 : Vec Ideal S128x128 .f32) (p q : Fin 128) :
    k0_pay1 (F := Ideal) v78 v82 v84 v95 v97 (ix2 p q)
      = max (max (v78 (ix2 p q)) (chunkMax v82 v84 p q)) (chunkMax v95 v97 p q) := by
  unfold k0_pay1
  exact congrArg₂ max (congrArg₂ max rfl (chunk_apply v82 v84 _ _ _ _ _ _ _ p q)) (chunk_apply v95 v97 _ _ _ _ _ _ _ p q)

/-- The stored tile at (p, q): the largest of the 1024 sums of row p of the first block with row q of the second. -/
theorem tileOf_apply (x0 x1 : Vec Ideal S128x1024 .f32) (b0 b1 b2 b3 b4 b5 b6 b7) (p q : Fin 128) :
    tileOf (F := Ideal) x0 x1 b0 b1 b2 b3 b4 b5 b6 b7 (ix2 p q)
      = (Finset.univ : Finset (Fin 1024)).fold max ⊥ fun i => x0 (ix2 p i) + x1 (ix2 q i) := by
  unfold tileOf
  rw [pay1_apply, pay3_apply, pay2_apply]
  rw [chunkMax_ld x0 x1 0 0 rfl b0 b0 p q, chunkMax_ld x0 x1 1 128 rfl b1 b1 p q, chunkMax_ld x0 x1 2 256 rfl b2 b2 p q,
    chunkMax_ld x0 x1 3 384 rfl b3 b3 p q, chunkMax_ld x0 x1 4 512 rfl b4 b4 p q, chunkMax_ld x0 x1 5 640 rfl b5 b5 p q,
    chunkMax_ld x0 x1 6 768 rfl b6 b6 p q, chunkMax_ld x0 x1 7 896 rfl b7 b7 p q]
  generalize (fun i : Fin 1024 => x0 (ix2 p i) + x1 (ix2 q i)) = f
  exact chunked_max f

/-- The same at any index `y` of the tile, by its two coordinates. -/
theorem tileOf_at (x0 x1 : Vec Ideal S128x1024 .f32) (b0 b1 b2 b3 b4 b5 b6 b7) (y : S128x128.Idx) :
    tileOf (F := Ideal) x0 x1 b0 b1 b2 b3 b4 b5 b6 b7 y
      = (Finset.univ : Finset (Fin 1024)).fold max ⊥ fun i =>
          x0 (ix2 ⟨(y 0).val, idx2_lt0 y⟩ i) + x1 (ix2 ⟨(y 1).val, idx2_lt1 y⟩ i) := by
  have hy : y = ix2 (⟨(y 0).val, idx2_lt0 y⟩ : Fin 128) (⟨(y 1).val, idx2_lt1 y⟩ : Fin 128) :=
    funext fun a => match a with | ⟨0, _⟩ => rfl | ⟨1, _⟩ => rfl
  exact (congrArg (tileOf (F := Ideal) x0 x1 b0 b1 b2 b3 b4 b5 b6 b7) hy).trans
    (tileOf_apply x0 x1 b0 b1 b2 b3 b4 b5 b6 b7 ⟨(y 0).val, idx2_lt0 y⟩ ⟨(y 1).val, idx2_lt1 y⟩)

end Cert.KernelIdeal.Tile

end
-- ==== Proof.Spec.lean ====
/-
  What the max-plus ("tropical") layer computes, as one function of the two argument arrays:

      out[b, o] = max over i < 1024 of ( x[b, i] + W[o, i] ),

  the maximum taken on the extended reals from `⊥` (minus infinity, the unit of `max`). Both programs are shown to end
  with exactly this array.
-/
import Idealize.ShloMosaic.PureOps.Ideal
import Idealize.ShloMosaic.Lib.ValueIdx

namespace Cert.MaxPlus

open Idealize.ShloMosaic Idealize.ShloMosaic.ValueIdx

/-- Row `b` of `x` against row `o` of `W`: the largest of the 1024 sums `x[b, i] + W[o, i]`. -/
noncomputable def tropicalAt (x W : (⟨2, ![512, 1024]⟩ : Shape).Idx → EReal) (b o : Fin 512) : EReal :=
  (Finset.univ : Finset (Fin 1024)).fold max ⊥ fun i => x (ix2 b i) + W (ix2 o i)

/-- The whole result array. -/
noncomputable def tropical (x W : (⟨2, ![512, 1024]⟩ : Shape).Idx → EReal) : (⟨2, ![512, 512]⟩ : Shape).Idx → EReal :=
  fun j => tropicalAt x W ⟨(j 0).val, idx2_lt0 j⟩ ⟨(j 1).val, idx2_lt1 j⟩

end Cert.MaxPlus
-- ==== Proof.KernelValue.lean ====
/-
  The kernel computes the max-plus layer.

  The grid is 4 × 4. At point t = (i, j) the first window stages rows 128·i … 128·i + 127 of `x` (all 1024 columns), the
  second rows 128·j … 128·j + 127 of `W`, and the output window writes back the [128, 128] tile at block (i, j) of the
  [512, 512] result. The tile's entry (p, q) is the max-plus product of row p of the `x` block with row q of the `W`
  block, that is, of row 128·i + p of `x` with row 128·j + q of `W`: the result array's entry at (128·i + p, 128·j + q).
  The sixteen tiles are the sixteen blocks of the result, so they cover it: row r lies in block r / 128.
-/
import proofs.«165688_j64433099374740_1_alg».proof.Proof.Gen.KernelIdeal.Value
import proofs.«165688_j64433099374740_1_alg».proof.Proof.KernelTile
import proofs.«165688_j64433099374740_1_alg».proof.Proof.Spec

set_option maxRecDepth 16384

noncomputable section

namespace Cert.KernelIdeal.MaxPlusValue

open Cert.KernelIdeal Cert.KernelIdeal.Gen Cert.KernelIdeal.Value Cert.KernelIdeal.Tile Cert.MaxPlus
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The eight slabs lie inside a block -/

theorem inb0 : ∀ a, (![0, 0] : Fin 2 → ℕ) a + S128x128.size a ≤ S128x1024.size a := by decide
theorem inb1 : ∀ a, (![0, 128] : Fin 2 → ℕ) a + S128x128.size a ≤ S128x1024.size a := by decide
theorem inb2 : ∀ a, (![0, 256] : Fin 2 → ℕ) a + S128x128.size a ≤ S128x1024.size a := by decide
theorem inb3 : ∀ a, (![0, 384] : Fin 2 → ℕ) a + S128x128.size a ≤ S128x1024.size a := by decide
theorem inb4 : ∀ a, (![0, 512] : Fin 2 → ℕ) a + S128x128.size a ≤ S128x1024.size a := by decide
theorem inb5 : ∀ a, (![0, 640] : Fin 2 → ℕ) a + S128x128.size a ≤ S128x1024.size a := by decide
theorem inb6 : ∀ a, (![0, 768] : Fin 2 → ℕ) a + S128x128.size a ≤ S128x1024.size a := by decide
theorem inb7 : ∀ a, (![0, 896] : Fin 2 → ℕ) a + S128x128.size a ≤ S128x1024.size a := by decide

/-! ## The index maps, decided over the sixteen points -/

/-- The `x` window moves with the output's row block and the `W` window with its column block; both take whole rows;
    the output's block indices are below 4. -/
theorem idx_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 3 ∧ win0_2.index t (1 : Fin 2) ≤ 3 :=
  (by decide +kernel : ∀ t : Fin grid0.N, _)

/-- Every block of the result is some point's. -/
theorem idx_onto : ∀ (q0 q1 : Fin 4), ∃ t : Fin cfg0.N, win0_2.index t = ![q0.val, q1.val] :=
  (by decide +kernel : ∀ (q0 q1 : Fin 4), ∃ t : Fin grid0.N, win0_2.index t = ![q0.val, q1.val])

/-! ## The arrays and the blocks, at their literal types -/

abbrev xarr (c : Dev nD) : Vec Ideal S512x1024 .f32 := V m c main_arg0
abbrev warr (c : Dev nD) : Vec Ideal S512x1024 .f32 := V m c main_arg1
abbrev xblk (c : Dev nD) (t : Fin cfg0.N) : Vec Ideal S128x1024 .f32 := iblk m c 0 t
abbrev wblk (c : Dev nD) (t : Fin cfg0.N) : Vec Ideal S128x1024 .f32 := iblk m c 1 t

/-- Where the output tile's entry `y` sits in the result array. -/
abbrev place (t : Fin cfg0.N) (y : S128x128.Idx) : S512x512.Idx := ((cfg0.win 2).blk t).view.emb y

/-- Row `y 0` of the `x` block at point `t` is the row of `x` that the tile's entry `y` sits on. -/
theorem xblk_apply (c : Dev nD) (t : Fin cfg0.N) (y : S128x128.Idx) (i : Fin 1024) :
    xblk m c t (ix2 ⟨(y 0).val, idx2_lt0 y⟩ i) = xarr m c (ix2 ⟨(place t y 0).val, idx2_lt0 (place t y)⟩ i) := by
  show V m c main_arg0 (((cfg0.win 0).blk t).view.emb (ix2 ⟨(y 0).val, idx2_lt0 y⟩ i)) = V m c main_arg0 _
  refine congrArg (V m c main_arg0) (funext fun a => Fin.ext ?_)
  obtain ⟨e0, e1, -, -, -, -⟩ := idx_facts t
  match a with
  | ⟨0, _⟩ => show win0_0.index t (0 : Fin 2) * 128 + 1 * (y 0).val = win0_2.index t (0 : Fin 2) * 128 + 1 * (y 0).val; rw [e0]
  | ⟨1, _⟩ => show win0_0.index t (1 : Fin 2) * 1024 + 1 * i.val = i.val; rw [e1]; omega

/-- Row `y 1` of the `W` block at point `t` is the row of `W` for the column the tile's entry `y` sits on. -/
theorem wblk_apply (c : Dev nD) (t : Fin cfg0.N) (y : S128x128.Idx) (i : Fin 1024) :
    wblk m c t (ix2 ⟨(y 1).val, idx2_lt1 y⟩ i) = warr m c (ix2 ⟨(place t y 1).val, idx2_lt1 (place t y)⟩ i) := by
  show V m c main_arg1 (((cfg0.win 1).blk t).view.emb (ix2 ⟨(y 1).val, idx2_lt1 y⟩ i)) = V m c main_arg1 _
  refine congrArg (V m c main_arg1) (funext fun a => Fin.ext ?_)
  obtain ⟨-, -, e2, e3, -, -⟩ := idx_facts t
  match a with
  | ⟨0, _⟩ => show win0_1.index t (0 : Fin 2) * 128 + 1 * (y 1).val = win0_2.index t (1 : Fin 2) * 128 + 1 * (y 1).val; rw [e2]
  | ⟨1, _⟩ => show win0_1.index t (1 : Fin 2) * 1024 + 1 * i.val = i.val; rw [e3]; omega

/-! ## What each point writes back -/

/-- What point `t` writes back is the stored tile of the point's two input blocks. -/
theorem flushed_tile (c : Dev nD) (t : Fin cfg0.N) :
    (dats m 0 c).flushed 2 t
      = (cfg0.win 2).cut (grid0.coords t) (tileOf (xblk m c t) (wblk m c t) inb0 inb1 inb2 inb3 inb4 inb5 inb6 inb7) :=
  (flushed2_A m c t).trans (congrArg ((cfg0.win 2).cut (grid0.coords t))
    (out_eq_tileOf c (grid0.coords t) (ms0_0 t) (hs0_0 t) (ms0_1 t) (hs0_1 t) (ms0_2 t) (hs0_2 t) (iblk m c 0 t) (iblk m c 1 t)
      inb0 inb1 inb2 inb3 inb4 inb5 inb6 inb7))

/-- … and that tile is block `t` of the max-plus layer of the two argument arrays. -/
theorem flushed_eq (c : Dev nD) (t : Fin cfg0.N) :
    (dats m 0 c).flushed 2 t = ((cfg0.win 2).blk t).view.read (Elt Ideal) (tropical (xarr m c) (warr m c)) := by
  refine (flushed_tile m c t).trans (funext fun y => ?_)
  show tileOf (xblk m c t) (wblk m c t) inb0 inb1 inb2 inb3 inb4 inb5 inb6 inb7 y = tropical (xarr m c) (warr m c) (place t y)
  refine (tileOf_at (xblk m c t) (wblk m c t) inb0 inb1 inb2 inb3 inb4 inb5 inb6 inb7 y).trans ?_
  unfold tropical tropicalAt
  refine congrArg (fun g : Fin 1024 → EReal => (Finset.univ : Finset (Fin 1024)).fold max ⊥ g) (funext fun (i : Fin 1024) => ?_)
  exact congrArg₂ (· + ·) (xblk_apply m c t y i) (wblk_apply m c t y i)

/-! ## The tiles cover the result -/

/-- An index of the result is in point `t`'s tile iff each coordinate is in the tile's range on its axis. -/
theorem mem_blk (t : Fin cfg0.N) (i : S512x512.Idx) :
    i ∈ ((cfg0.win 2).blk t).view.set ↔ ∀ a : Fin 2, win0_2.index t a * S128x128.size a ≤ (i a).val ∧ (i a).val < win0_2.index t a * S128x128.size a + S128x128.size a := by
  show i ∈ ((View.whole main_v0).slice (win0_2.rect t)).set ↔ _
  rw [View.set_slice_whole, Rect.mem_set_unit]
  exact Iff.rfl

/-- Every index of the result is in some point's tile: row `r` in row block `r / 128`, column likewise. -/
theorem cover (i : S512x512.Idx) : ∃ t : Fin cfg0.N, (cfg0.win 2).flush t = true ∧ i ∈ ((cfg0.win 2).blk t).view.set := by
  have hi0 : (i 0).val < 512 := (i 0).isLt
  have hi1 : (i 1).val < 512 := (i 1).isLt
  obtain ⟨t, ht⟩ := idx_onto ⟨(i 0).val / 128, by omega⟩ ⟨(i 1).val / 128, by omega⟩
  have q0 : win0_2.index t (0 : Fin 2) = (i 0).val / 128 := congrFun ht 0
  have q1 : win0_2.index t (1 : Fin 2) = (i 1).val / 128 := congrFun ht 1
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 128 ≤ (i 1).val ∧ (i 1).val < win0_2.index t (1 : Fin 2) * 128 + 128; omega

/-! ## The result array, and the run -/

/-- After the run the result array is the max-plus layer of the two arguments. -/
theorem final (c : Dev nD) :
    (dats m 0 c).arrAt 2 cfg0.N = tropical (m ((c : Thread nD τ).loc main_arg0)) (m ((c : Thread nD τ).loc main_arg1)) :=
  (dats m 0 c).arrAt_eq_of_cover 2 (tropical (xarr m c) (warr m c)) (fun t _ => flushed_eq m c t) cover

/-- Every weakly fair execution of the kernel's program ends with the result array at the max-plus layer of the
    arguments, and the arguments unchanged. -/
theorem run : θ_run defs (onTc (τ := τ) (main (F := Ideal))) ⟨m, fun _ => 0, ρ⟩ fun r => ∀ c : Dev nD,
      r.2.mem ((c : Thread nD τ).loc main_v0) = tropical (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.MaxPlusValue

end
-- ==== Proof.RefValue.lean ====
/-
  The reference computes the max-plus layer.

  Its program broadcasts `W` along a new leading axis and `x` along a new middle axis to [512, 512, 1024], adds them,
  and reduces the last axis by `max` from minus infinity. Read at a result index (b, o): the reduce is the maximum,
  from `⊥`, over the last coordinate `i` of the sum at (b, o, i); the two broadcasts read `W` at (o, i) and `x` at
  (b, i); and `W[o, i] + x[b, i] = x[b, i] + W[o, i]` on the extended reals, where addition is commutative without
  any finiteness assumption.
-/
import proofs.«165688_j64433099374740_1_alg».proof.Proof.Gen.ReferenceIdeal.Read
import proofs.«165688_j64433099374740_1_alg».proof.Proof.MaxFold
import proofs.«165688_j64433099374740_1_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx

/-- The shape fact that names the reduced axis's coordinate. -/
theorem reduces_last : S512x512x1024.Reduces [2] S512x512 := by decide

/-- The sum the reference reduces, at (b, o, i): `W[o, i] + x[b, i]`. -/
theorem summand_apply (x0 x1 : FVec Ideal S512x1024 .f32) (j : S512x512.Idx) (i : Fin 1024) :
    val_main_v4 (F := Ideal) x0 x1 (reduces_last.lift j i)
      = x1 (ix2 ⟨(j 1).val, idx2_lt1 j⟩ i) + x0 (ix2 ⟨(j 0).val, idx2_lt0 j⟩ i) := by
  rw [val_main_v4_apply, val_main_v2_apply, val_main_v0_apply, val_main_v3_apply, val_main_v1_apply]
  show x1 _ + x0 _ = _
  congr 1
  · exact congrArg x1 (funext fun a => match a with | ⟨0, _⟩ => rfl | ⟨1, _⟩ => rfl)
  · exact congrArg x0 (funext fun a => match a with | ⟨0, _⟩ => rfl | ⟨1, _⟩ => rfl)

/-- The reference's result stage is the max-plus layer of its arguments (`x` first, `W` second). -/
theorem val_main_v5_eq_tropical (x0 x1 : FVec Ideal S512x1024 .f32) :
    val_main_v5 (F := Ideal) x0 x1 = Cert.MaxPlus.tropical x0 x1 := by
  funext j
  unfold val_main_v5
  refine (Host.reduce_eq_fold_single FloatOps.maximumf _ _ reducesTo_S512x512x1024_S512x512_d2 reduces_last h_S_ j).trans ?_
  show (Finset.univ : Finset (Fin 1024)).fold max (Ideal.ofBits .f32 0xFF800000#32) _ = _
  rw [Cert.MaxPlus.negInf_eq_bot]
  unfold Cert.MaxPlus.tropical Cert.MaxPlus.tropicalAt
  refine congrArg (fun g => (Finset.univ : Finset (Fin 1024)).fold max ⊥ g) (funext fun i => ?_)
  exact (summand_apply x0 x1 j i).trans (add_comm _ _)

end Cert.ReferenceIdeal.RefValue

end
-- ==== Proof.lean ====
/-
  A max-plus ("tropical") linear layer: out[b, o] = max over i < 1024 of ( x[b, i] + W[o, i] ), for x and W of shape
  [512, 1024] and out of shape [512, 512].

  The kernel tiles the result 4 × 4. For each [128, 128] tile it keeps a running maximum, started at minus infinity, and
  absorbs the 1024 columns in eight chunks of 128: in each chunk it adds a slab of x (broadcast along the tile's
  columns) to a slab of W (broadcast along the tile's rows) and takes the maximum along the chunk. The reference
  broadcasts both arrays to [512, 512, 1024], adds, and takes one maximum along the last axis from minus infinity.

  On the extended reals the two agree exactly, with no assumption on the inputs beyond what the statement gives:
  addition is commutative (the kernel adds x + W, the reference W + x), minus infinity is the unit of `max`, and a
  maximum is determined by its set of upper bounds, so taking it chunk by chunk, in any grouping, changes nothing
  (Proof/MaxFold.lean). Proof/KernelChunk.lean reads one chunk at a tile position, Proof/KernelPiece.lean and
  Proof/KernelTile.lean the stored tile, Proof/KernelValue.lean places the sixteen tiles in the result, and
  Proof/RefValue.lean reads the reference; both sides end at the one function of Proof/Spec.lean.

  The three frame claims: each kernel program's from its frame run, the reference's from its run with the result
  dropped. The kernel's idealization rewrote nothing, so there is nothing for it to preserve.
-/
import proofs.«165688_j64433099374740_1_alg».proof.Defs
import proofs.«165688_j64433099374740_1_alg».proof.Proof.Gen.Kernel
import proofs.«165688_j64433099374740_1_alg».proof.Proof.Gen.Kernel.Skeleton
import proofs.«165688_j64433099374740_1_alg».proof.Proof.Gen.Kernel.Launch
import proofs.«165688_j64433099374740_1_alg».proof.Proof.Gen.Kernel.Points
import proofs.«165688_j64433099374740_1_alg».proof.Proof.Gen.Kernel.Frame
import proofs.«165688_j64433099374740_1_alg».proof.Proof.Gen.KernelIdeal
import proofs.«165688_j64433099374740_1_alg».proof.Proof.Gen.KernelIdeal.Skeleton
import proofs.«165688_j64433099374740_1_alg».proof.Proof.Gen.KernelIdeal.Launch
import proofs.«165688_j64433099374740_1_alg».proof.Proof.Gen.KernelIdeal.Points
import proofs.«165688_j64433099374740_1_alg».proof.Proof.Gen.KernelIdeal.Frame
import proofs.«165688_j64433099374740_1_alg».proof.Proof.Gen.ReferenceIdeal
import proofs.«165688_j64433099374740_1_alg».proof.Proof.Gen.Pre_finite_inputs
import proofs.«165688_j64433099374740_1_alg».proof.Proof.Gen.KernelIdeal.Value
import proofs.«165688_j64433099374740_1_alg».proof.Proof.Gen.ReferenceIdeal.Run
import proofs.«165688_j64433099374740_1_alg».proof.Proof.Gen.ReferenceIdeal.Read
import proofs.«165688_j64433099374740_1_alg».proof.Proof.KernelValue
import proofs.«165688_j64433099374740_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories that agree on x and W, the kernel's result array and the reference's are both the max-plus layer of
    the arguments: the kernel's by its tiles, the reference's by its one reduction. -/
theorem algebraic : Cert.algebraic_KernelIdeal_ReferenceIdeal := by
  intro m ρ m' ρ' _ hagree
  refine ⟨_, Cert.KernelIdeal.MaxPlusValue.run m ρ, ?_⟩
  refine (θ_run Cert.ReferenceIdeal.defs _ _).mono (fun _ h c => ⟨(h c).1.trans ?_, (h c).2⟩)
    (Cert.ReferenceIdeal.Value.run (F := Ideal) m' ρ')
  exact (Cert.ReferenceIdeal.Read.val_main_v5_eq _ _).trans
    ((Cert.ReferenceIdeal.RefValue.val_main_v5_eq_tropical _ _).trans
      (congrArg₂ Cert.MaxPlus.tropical (hagree c).1 (hagree c).2))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
